-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1024 : Shape := ⟨2, ![65536, 1024]⟩
abbrev S1024 : Shape := ⟨1, ![1024]⟩
abbrev S1024x1024 : Shape := ⟨2, ![1024, 1024]⟩
abbrev S1 : Shape := ⟨1, ![1]⟩
abbrev S1x1024 : Shape := ⟨2, ![1, 1024]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1 : S_.BroadcastsInDim S1 (![] : Fin 0 → Fin S1.rank)
  reducesTo_S1_S_d0 : S1.ReducesTo [0] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S1 .f32) (main_arg5 : FVec F S1x1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S1x1024 .f32 := Host.absf main_arg5
  let main_cst_8 : FVec F S_ .f32 := constant S_ .f32 0x7F800000#32
  let main_v25 : FVec F S1x1024 .f32 := broadcastInDim S1x1024 ![] bcast_S_S1x1024 main_cst_8
  let main_v26 : IVec S1x1024 1 := cmpf .olt main_v24 main_v25
  let main_c_9 : IVec S_ 1 := constantI S_ 1 1#1
  let main_v27 : IVec S_ 1 := (fun x v => Host.reduce IntOp.andi x v reducesTo_S1x1024_S_d0_1 h_S_) main_v26 main_c_9
  let main_v28 : IVec S_ 1 := andi main_v23 main_v27
  main_v28

def fn {F : FTy → Type} [FloatOps F] (main_arg0 : FVec F S65536x1024 .f32) (main_arg1 : FVec F S1024 .f32) (main_arg2 : FVec F S1024x1024 .f32) (main_arg3 : FVec F S1024 .f32) (main_arg4 : FVec F S1 .f32) (main_arg5 : FVec F S1x1024 .f32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_v13 main_v16
-- ==== Kernel.lean ====
abbrev S65536x1024 : Shape := ⟨2, ![65536, 1024]⟩
abbrev S1024 : Shape := ⟨1, ![1024]⟩
abbrev S1024x1024 : Shape := ⟨2, ![1024, 1024]⟩
abbrev S1 : Shape := ⟨1, ![1]⟩
abbrev S1x1024 : Shape := ⟨2, ![1, 1024]⟩
abbrev S_ : Shape := ⟨0, ![]⟩
abbrev S1x1 : Shape := ⟨2, ![1, 1]⟩
abbrev S512x1024 : Shape := ⟨2, ![512, 1024]⟩

abbrev nBuf : Space → Nat
  | .hbm => 24
  | .vmem => 9
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x1024, .f32⟩
  | .hbm, ⟨3, _⟩ => ⟨S1024, .f32⟩
  | .hbm, ⟨4, _⟩ => ⟨S1, .f32⟩
  | .hbm, ⟨5, _⟩ => ⟨S1x1024, .f32⟩
  | .hbm, ⟨6, _⟩ => ⟨S1024x1024, .bf16⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S_, .f32⟩
  | .hbm, ⟨14, _⟩ => ⟨S1024, .f32⟩
  | .hbm, ⟨15, _⟩ => ⟨S_, .f32⟩
  | .hbm, ⟨16, _⟩ => ⟨S1024, .f32⟩
  | .hbm, ⟨17, _⟩ => ⟨S1024, .f32⟩
  | .hbm, ⟨18, _⟩ => ⟨S1024, .f32⟩
  | .hbm, ⟨19, _⟩ => ⟨S1x1024, .f32⟩
  | .hbm, ⟨20, _⟩ => ⟨S1x1, .f32⟩
  | .hbm, ⟨21, _⟩ => ⟨S1x1024, .f32⟩
  | .hbm, ⟨22, _⟩ => ⟨S1x1024, .f32⟩
  | .hbm, ⟨23, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bitsLt_bf16_f32 : FTy.bits .bf16 < FTy.bits .f32
  shapeCasts_S1024_S1x1024 : S1024.ShapeCasts S1x1024
  bcast_S1024_S1x1024_1 : S1024.BroadcastsInDim S1x1024 (![1] : Fin 1 → Fin S1x1024.rank)
  bcast_S1x1024_S1024x1024_0_1 : S1x1024.BroadcastsInDim S1024x1024 (![0, 1] : Fin 2 → Fin S1024x1024.rank)
  reducesTo_S1024x1024_S1024_d1 : S1024x1024.ReducesTo [1] S1024
  h_S_ : 0 < S_.numel
  bcast_S_S1024 : S_.BroadcastsInDim S1024 (![] : Fin 0 → Fin S1024.rank)
  bcast_S1_S1x1_1 : S1.BroadcastsInDim S1x1 (![1] : Fin 1 → Fin S1x1.rank)
  bcast_S1x1_S1x1024_0_1 : S1x1.BroadcastsInDim S1x1024 (![0, 1] : Fin 2 → Fin S1x1024.rank)
  inb_S512x1024_S512x1024_0_0 : ∀ a, (![0, 0] : Fin 2 → Nat) a + S512x1024.size a ≤ S512x1024.size a
  h_S512x1024 : 0 < S512x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  dot_S512x1024_S1024x1024_S512x1024_1_1_0_0_n_n_wf : DotDims.WF S512x1024 S1024x1024 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S65536x1024.size a
  hwx0_0 : ∀ i : grid0.Coords, EltTy.bits .f32 = 32 ∨ (Rect.block (s := S65536x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S65536x1024.size a
  hwx0_6 : ∀ i : grid0.Coords, EltTy.bits .f32 = 32 ∨ (Rect.block (s := S65536x1024) S512x1024.size (cc0_transform_6 i) (hinb0_6 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v15) S512x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S65536x1024 : Shape := ⟨2, ![65536, 1024]⟩
abbrev S1024 : Shape := ⟨1, ![1024]⟩
abbrev S1024x1024 : Shape := ⟨2, ![1024, 1024]⟩
abbrev S1 : Shape := ⟨1, ![1]⟩
abbrev S1x1024 : Shape := ⟨2, ![1, 1024]⟩
abbrev S_ : Shape := ⟨0, ![]⟩
abbrev S1x1 : Shape := ⟨2, ![1, 1]⟩

abbrev nBuf : Space → Nat
  | .hbm => 45
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x1024, .f32⟩
  | .hbm, ⟨3, _⟩ => ⟨S1024, .f32⟩
  | .hbm, ⟨4, _⟩ => ⟨S1, .f32⟩
  | .hbm, ⟨5, _⟩ => ⟨S1x1024, .f32⟩
  | .hbm, ⟨6, _⟩ => ⟨S1024x1024, .f32⟩
  | .hbm, ⟨7, _⟩ => ⟨S65536x1024, .f32⟩
  | .hbm, ⟨8, _⟩ => ⟨S1x1024, .f32⟩
  | .hbm, ⟨9, _⟩ => ⟨S65536x1024, .f32⟩
  | .hbm, ⟨10, _⟩ => ⟨S65536x1024, .f32⟩
  | .hbm, ⟨11, _⟩ => ⟨S1x1024, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S_, .f32⟩
  | .hbm, ⟨16, _⟩ => ⟨S1024, .f32⟩
  | .hbm, ⟨17, _⟩ => ⟨S_, .f32⟩
  | .hbm, ⟨18, _⟩ => ⟨S1024, .f32⟩
  | .hbm, ⟨19, _⟩ => ⟨S1024, .f32⟩
  | .hbm, ⟨20, _⟩ => ⟨S1024, .f32⟩
  | .hbm, ⟨21, _⟩ => ⟨S1x1024, .f32⟩
  | .hbm, ⟨22, _⟩ => ⟨S65536x1024, .f32⟩
  | .hbm, ⟨23, _⟩ => ⟨S65536x1024, .f32⟩
  | .hbm, ⟨24, _⟩ => ⟨S1024x1024, .f32⟩
  | .hbm, ⟨25, _⟩ => ⟨S65536x1024, .f32⟩
  | .hbm, ⟨26, _⟩ => ⟨S1x1, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S65536x1024, .f32⟩
  | .hbm, ⟨31, _⟩ => ⟨S65536x1024, .f32⟩
  | .hbm, ⟨32, _⟩ => ⟨S65536x1024, .f32⟩
  | .hbm, ⟨33, _⟩ => ⟨S65536x1024, .f32⟩
  | .hbm, ⟨34, _⟩ => ⟨S1x1024, .f32⟩
  | .hbm, ⟨35, _⟩ => ⟨S65536x1024, .f32⟩
  | .hbm, ⟨36, _⟩ => ⟨S65536x1024, .f32⟩
  | .hbm, ⟨37, _⟩ => ⟨S_, .f32⟩
  | .hbm, ⟨38, _⟩ => ⟨S_, .f32⟩
  | .hbm, ⟨39, _⟩ => ⟨S65536x1024, .f32⟩
  | .hbm, ⟨40, _⟩ => ⟨S65536x1024, .i1⟩
  | .hbm, ⟨41, _⟩ => ⟨S_, .f32⟩
  | .hbm, ⟨42, _⟩ => ⟨S65536x1024, .f32⟩
  | .hbm, ⟨43, _⟩ => ⟨S65536x1024, .f32⟩
  | .hbm, ⟨44, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_1 : Ref sig .tc := ⟨.hbm, 37, rfl⟩
abbrev main_call0_cst : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_v29 : Ref sig .tc := ⟨.hbm, 44, rfl⟩

abbrev nD : Nat := 1
abbrev τ : Topo := Topo.v7x

variable {F : FTy → Type} [FloatOps F]

class Facts₀ : Prop where
  transposes_S1024x1024_S1024x1024_1_0 : S1024x1024.Transposes [1, 0] S1024x1024
  bcast_S1024_S1x1024_1 : S1024.BroadcastsInDim S1x1024 (![1] : Fin 1 → Fin S1x1024.rank)
  bcast_S1x1024_S65536x1024_0_1 : S1x1024.BroadcastsInDim S65536x1024 (![0, 1] : Fin 2 → Fin S65536x1024.rank)
  bcast_S1x1024_S1024x1024_0_1 : S1x1024.BroadcastsInDim S1024x1024 (![0, 1] : Fin 2 → Fin S1024x1024.rank)
  reducesTo_S1024x1024_S1024_d1 : S1024x1024.ReducesTo [1] S1024
  h_S_ : 0 < S_.numel
  bcast_S_S1024 : S_.BroadcastsInDim S1024 (![] : Fin 0 → Fin S1024.rank)
  bcast_S1_S1x1_1 : S1.BroadcastsInDim S1x1 (![1] : Fin 1 → Fin S1x1.rank)
  bcast_S1x1_S1x1024_0_1 : S1x1.BroadcastsInDim S1x1024 (![0, 1] : Fin 2 → Fin S1x1024.rank)
  bcast_S_S65536x1024 : S_.BroadcastsInDim S65536x1024 (![] : Fin 0 → Fin S65536x1024.rank)
  dot_S65536x1024_S1024x1024_S65536x1024_1_0_0_1_n_n_wf : DotDims.WF S65536x1024 S1024x1024 S65536x1024 [1] [0] [0] [1] [] []

variable [Facts₀]

def dot_S65536x1024_S1024x1024_S65536x1024_1_0_0_1_n_n : DotDims S65536x1024 S1024x1024 S65536x1024 where
  lhsContracting := [1]
  rhsContracting := [0]
  lhsNonContracting := [0]
  rhsNonContracting := [1]
  lhsBatch := []
  rhsBatch := []
  wf := dot_S65536x1024_S1024x1024_S65536x1024_1_0_0_1_n_n_wf

class Facts : Prop extends Facts₀ where

variable [Facts]
-- ==== Proof.Spec.lean ====
/-
  What both programs compute, written for one row of the input at a time.

  For a row `x` (1024 entries), a square weight matrix `W`, a style vector `w`, a bias `b`, demodulation
  coefficients `dc` and a noise row `nz`, output channel `p` is

      leaky ( (∑ o, ((∑ k, x k · W o k) + b o) · w o · W p o) · dc p + nz p + b p )

  where `leaky y` is `y` when `y ≥ 0` and the slope's binary value times `y` otherwise. Everything is over
  the extended reals; only sums and products of the given numbers occur, in one fixed arrangement, so no
  law of arithmetic is needed to compare two programs that both follow this arrangement.
-/
import Idealize.ShloMosaic.PureOps.Ideal
import Idealize.ShloMosaic.Lib.ValueIdx

noncomputable section

namespace Cert.Spec

open Idealize.ShloMosaic

/-- The leaky rectifier on one extended real: the number itself where it is at least zero, otherwise the
    slope (the binary value of the word `0x3C23D70A`) times it. -/
def leaky (y : EReal) : EReal :=
  Scalar.select (Ideal.cmp .oge y (Ideal.ofBits .f32 0x00000000#32)) y (Ideal.ofBits .f32 0x3C23D70A#32 * y)

/-- One output channel of the affine layer: the row against row `o` of the weights, plus the bias. -/
def lin (W : Fin 1024 → Fin 1024 → EReal) (b v : Fin 1024 → EReal) (o : Fin 1024) : EReal :=
  (∑ k : Fin 1024, v k * W o k) + b o

/-- One output channel of the whole layer, from one input row. -/
def out (W : Fin 1024 → Fin 1024 → EReal) (w b dc nz xrow : Fin 1024 → EReal) (p : Fin 1024) : EReal :=
  leaky ((∑ o : Fin 1024, (lin W b xrow o * w o) * W p o) * dc p + nz p + b p)

end Cert.Spec

end
-- ==== Proof.KernelPay.lean ====
/-
  The kernel body's one stored value, read at an index of the block.

  The body contracts its two matrix products over the second axis of both factors, into a zero accumulator:
  at row `q`, column `o` such a product is `∑ k, L q k · R o k`. Rounding to the narrower format is the identity
  on extended reals, a one-row operand laid along the rows reads its own entry in every row, and the rest of
  the body acts entry by entry. Read at (q, p), the stored value is therefore the layer's output channel `p`
  from row `q` of the input block.
-/
import proofs.«159794_j9766755631183_1_alg».proof.Proof.Gen.KernelIdeal.Skeleton
import proofs.«159794_j9766755631183_1_alg».proof.Proof.Spec
import Idealize.ShloMosaic.Lib.ValueIdx
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx

theorem lhs_ax0 (j : S512x1024.Idx) (k : dot_S512x1024_S1024x1024_S512x1024_1_1_0_0_n_n.contr.Idx) :
    (dot_S512x1024_S1024x1024_S512x1024_1_1_0_0_n_n.lhsIdx j k 0).val = (j 0).val := by
  unfold DotDims.lhsIdx
  rw [dif_neg (show ¬(0 : Fin S512x1024.rank) ∈ dot_S512x1024_S1024x1024_S512x1024_1_1_0_0_n_n.lhsBatch by decide),
    dif_pos (show (0 : Fin S512x1024.rank) ∈ dot_S512x1024_S1024x1024_S512x1024_1_1_0_0_n_n.lhsNonContracting by decide)]
  rfl

theorem lhs_ax1 (j : S512x1024.Idx) (k : dot_S512x1024_S1024x1024_S512x1024_1_1_0_0_n_n.contr.Idx) :
    (dot_S512x1024_S1024x1024_S512x1024_1_1_0_0_n_n.lhsIdx j k 1).val = (k ⟨0, by decide⟩).val :=
  dot_S512x1024_S1024x1024_S512x1024_1_1_0_0_n_n.lhsIdx_val_of_single (cl := 1) rfl j k

theorem rhs_ax0 (j : S512x1024.Idx) (k : dot_S512x1024_S1024x1024_S512x1024_1_1_0_0_n_n.contr.Idx) :
    (dot_S512x1024_S1024x1024_S512x1024_1_1_0_0_n_n.rhsIdx j k 0).val = (j 1).val := by
  unfold DotDims.rhsIdx
  rw [dif_neg (show ¬(0 : Fin S1024x1024.rank) ∈ dot_S512x1024_S1024x1024_S512x1024_1_1_0_0_n_n.rhsBatch by decide),
    dif_pos (show (0 : Fin S1024x1024.rank) ∈ dot_S512x1024_S1024x1024_S512x1024_1_1_0_0_n_n.rhsNonContracting by decide)]
  rfl

theorem rhs_ax1 (j : S512x1024.Idx) (k : dot_S512x1024_S1024x1024_S512x1024_1_1_0_0_n_n.contr.Idx) :
    (dot_S512x1024_S1024x1024_S512x1024_1_1_0_0_n_n.rhsIdx j k 1).val = (k ⟨0, by decide⟩).val :=
  dot_S512x1024_S1024x1024_S512x1024_1_1_0_0_n_n.rhsIdx_val_of_single (cr := 1) rfl j k

/-- A block product into the zero accumulator, read at row `q` and column `o`: the row of the left factor
    against row `o` of the right factor (both factors are contracted on their second axis). -/
theorem matmul_apply (lhs : FVec Ideal S512x1024 .bf16) (rhs : FVec Ideal S1024x1024 .bf16) (q : Fin 512) (o : Fin 1024) :
    matmul dot_S512x1024_S1024x1024_S512x1024_1_1_0_0_n_n none lhs rhs (constant S512x1024 .f32 0x00000000#32) (ix2 q o)
      = ∑ k : Fin 1024, lhs (ix2 q k) * rhs (ix2 o k) := by
  simp only [matmul]
  rw [Ideal.matmul_constant_zero_apply,
    ← Equiv.sum_comp (contrEquiv1 dot_S512x1024_S1024x1024_S512x1024_1_1_0_0_n_n 1024 rfl rfl).symm]
  refine Finset.sum_congr rfl fun k _ => ?_
  have hk := contrEquiv1_symm_val dot_S512x1024_S1024x1024_S512x1024_1_1_0_0_n_n 1024 rfl rfl k
  congr 2
  · funext a; apply Fin.ext
    match a with
    | ⟨0, _⟩ => exact lhs_ax0 _ _
    | ⟨1, _⟩ => exact (lhs_ax1 _ _).trans hk
  · funext a; apply Fin.ext
    match a with
    | ⟨0, _⟩ => exact rhs_ax0 _ _
    | ⟨1, _⟩ => exact (rhs_ax1 _ _).trans hk

/-- A one-row vector laid along the 512 rows of a block reads its own entry in every row. -/
theorem bcastRow_apply (v : FVec Ideal S1x1024 .f32) (q : Fin 512) (o : Fin 1024) :
    broadcastTo S512x1024 v broadcasts_S1x1024_S512x1024 (ix2 q o) = v (ix2 0 o) :=
  broadcastTo_apply v _ (ix2 q o) (ix2 0 o) (fun a => by match a with | ⟨0, _⟩ => rfl | ⟨1, _⟩ => rfl)

/-- The body's one stored value, read at row `q` and channel `p` of the block: the layer's output channel
    `p` computed from row `q` of the input block, with the weights, style, bias, demodulation coefficients
    and noise read off the resident blocks. Rounding to the narrow format is the identity on extended reals,
    and a product into the zero accumulator is the plain sum. -/
theorem pay_apply (x0 : Vec Ideal S512x1024 .f32) (x1 : Vec Ideal S1024x1024 .bf16) (x2 x3 x4 x5 : Vec Ideal S1x1024 .f32)
    (q : Fin 512) (p : Fin 1024) :
    k0_pay1 x0 x1 x2 x3 x4 x5 (ix2 q p)
      = Cert.Spec.out (fun o k => x1 (ix2 o k)) (fun o => x2 (ix2 0 o)) (fun o => x3 (ix2 0 o)) (fun o => x4 (ix2 0 o))
          (fun o => x5 (ix2 0 o)) (fun k => x0 (ix2 q k)) p := by
  unfold k0_pay1 Cert.Spec.out Cert.Spec.leaky Cert.Spec.lin
  simp only [shapeCast_self, select_apply, cmpf_apply, mulf_apply, addf_apply, broadcast_apply, bcastRow_apply,
    matmul_apply, truncf_apply]
  rfl

end Cert.KernelIdeal.Pay

end
-- ==== Proof.KernelValue.lean ====
/-
  The kernel's result array as one function of the six arguments, index by index.

  Before the region the host narrows the weights, lays the style vector and the bias out as single rows,
  computes the demodulation coefficients (the reciprocal square root of each weight row's modulated square
  sum plus a small constant) as a single row, and scales the raw noise row by the one strength. The region
  runs over 128 grid points; point `t` reads rows `512 t … 512 t + 511` of the input and the five resident
  operands whole, and writes rows `512 t … 512 t + 511` of the result. At row `q`, channel `p` of its block the
  body stores the layer's output channel `p` computed from row `q` of the input block. So every point writes its
  block of one whole-array function `G`, and the blocks tile the array: the array ends holding `G`.
-/
import proofs.«159794_j9766755631183_1_alg».proof.Proof.Gen.KernelIdeal.Value
import proofs.«159794_j9766755631183_1_alg».proof.Proof.KernelPay
import Idealize.ShloMosaic.Lib.StableHlo.Run

noncomputable section

namespace Cert.KernelIdeal.Whole

open Cert.KernelIdeal Cert.KernelIdeal.Gen Cert.KernelIdeal.Value Idealize.ShloMosaic Idealize.ShloMosaic.TcCoe Idealize.SL.Sem
open Idealize.ShloMosaic.ValueIdx Idealize.ShloMosaic.StableHlo
open Idealize.ShloMosaic.Pipeline (Dat)

/-! ## What the host computes before the region -/

section Host
variable {F : FTy → Type} [FloatOps F]
variable (m : (ℓ : Loc nD τ sig) → Buf (Elt F) ℓ)

/-- A vector of 1024 entries laid along every row of a square matrix. -/
def rowsSqK (v : FVec F S1024 .f32) : FVec F S1024x1024 .f32 :=
  broadcastInDim S1024x1024 ![0, 1] bcast_S1x1024_S1024x1024_0_1 (broadcastInDim S1x1024 ![1] bcast_S1024_S1x1024_1 v)

/-- The demodulation coefficients: the reciprocal square root of each weight row's modulated square sum
    plus the small constant. -/
def dcoefK (W : FVec F S1024x1024 .f32) (w : FVec F S1024 .f32) : FVec F S1024 .f32 :=
  Host.rsqrt (addf
    (Host.reduceAdd (mulf (mulf W (rowsSqK w)) (mulf W (rowsSqK w))) (constant S_ .f32 0x00000000#32) reducesTo_S1024x1024_S1024_d1 h_S_)
    (broadcastInDim S1024 ![] bcast_S_S1024 (constant S_ .f32 0x322BCC77#32)))

/-- The noise row: the raw noise times the one strength. -/
def noiseK (ns : FVec F S1 .f32) (nr : FVec F S1x1024 .f32) : FVec F S1x1024 .f32 :=
  mulf nr (broadcastInDim S1x1024 ![0, 1] bcast_S1x1_S1x1024_0_1 (broadcastInDim S1x1 ![1] bcast_S1_S1x1_1 ns))

/-- The region finds the weights narrowed to the short format. -/
theorem V_v0 (c : Dev nD) : (V m c main_v0 : S1024x1024.Idx → Elt F .bf16)
    = truncf .bf16 (m ((c : Thread nD τ).loc main_arg2)) bitsLt_bf16_f32 := by
  dsimp only [Gen.V, Gen.hostOps0]; after_results; try rfl

/-- The region finds the style vector as one row. -/
theorem V_v1 (c : Dev nD) : (V m c main_v1 : S1x1024.Idx → Elt F .f32)
    = shapeCast S1x1024 (m ((c : Thread nD τ).loc main_arg1)) shapeCasts_S1024_S1x1024 := by
  dsimp only [Gen.V, Gen.hostOps0]; after_results; try rfl

/-- The region finds the bias as one row. -/
theorem V_v2 (c : Dev nD) : (V m c main_v2 : S1x1024.Idx → Elt F .f32)
    = shapeCast S1x1024 (m ((c : Thread nD τ).loc main_arg3)) shapeCasts_S1024_S1x1024 := by
  dsimp only [Gen.V, Gen.hostOps0]; after_results; try rfl

/-- The region finds the demodulation coefficients as one row. -/
theorem V_v11 (c : Dev nD) : (V m c main_v11 : S1x1024.Idx → Elt F .f32)
    = shapeCast S1x1024 (dcoefK (m ((c : Thread nD τ).loc main_arg2)) (m ((c : Thread nD τ).loc main_arg1))) shapeCasts_S1024_S1x1024 := by
  dsimp only [Gen.V, Gen.hostOps0]; after_results; try rfl

/-- The region finds the noise row. -/
theorem V_v14 (c : Dev nD) : (V m c main_v14 : S1x1024.Idx → Elt F .f32)
    = noiseK (m ((c : Thread nD τ).loc main_arg4)) (m ((c : Thread nD τ).loc main_arg5)) := by
  dsimp only [Gen.V, Gen.hostOps0]; after_results; try rfl

end Host

/-! ## The result array, index by index -/

section AtIdeal
variable (m : (ℓ : Loc nD τ sig) → Buf (Elt Ideal) ℓ) (ρ : Dev nD → PrngReg)

theorem hz : (![0, 0] : Fin 2 → Nat) = fun _ => 0 := funext fun a => by fin_cases a <;> rfl

/-- A vector cast to one row reads its own entry. -/
theorem oneRow_apply (v : FVec Ideal S1024 .f32) (o : Fin 1024) :
    shapeCast S1x1024 v shapeCasts_S1024_S1x1024 (ix2 (0 : Fin 1) o) = v (ix1 o) :=
  shapeCast_apply v _ (ix2 (0 : Fin 1) o) (ix1 o) (by
    rw [Shape.rowMajor_val_one, Shape.rowMajor_val_two]
    show o.val = 0 * 1024 + o.val
    omega)

/-- The body's stored value at any index of the block, by its two coordinates. -/
theorem pay_at (x0 : Vec Ideal S512x1024 .f32) (x1 : Vec Ideal S1024x1024 .bf16) (x2 x3 x4 x5 : Vec Ideal S1x1024 .f32)
    (j : S512x1024.Idx) :
    k0_pay1 x0 x1 x2 x3 x4 x5 j
      = Cert.Spec.out (fun o k => x1 (ix2 o k)) (fun o => x2 (ix2 0 o)) (fun o => x3 (ix2 0 o)) (fun o => x4 (ix2 0 o))
          (fun o => x5 (ix2 0 o)) (fun k => x0 (ix2 (j 0) k)) (j 1) := by
  have e : j = ix2 (j 0) (j 1) := eq_ix2 j
  exact (congrArg (k0_pay1 x0 x1 x2 x3 x4 x5) e).trans (Pay.pay_apply x0 x1 x2 x3 x4 x5 (j 0) (j 1))

/-- The printed index maps over the grid: the input rows and the output rows move with the point, one
    block of 512 rows each; the five resident operands stay at block zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The input's block at point `t` is rows `512 t … 512 t + 511` of the input. -/
theorem iblk0_apply (c : Dev nD) (t : Fin cfg0.N) (y : S512x1024.Idx) (i : S65536x1024.Idx)
    (h0 : (i 0).val = 512 * t.val + (y 0).val) (h1 : (i 1).val = (y 1).val) :
    (iblk m c 0 t : Vec Ideal S512x1024 .f32) y = (m ((c : Thread nD τ).loc main_arg0) : S65536x1024.Idx → Elt Ideal .f32) i := by
  obtain ⟨e0, e1, -⟩ := idx_facts t
  unfold iblk
  rw [View.read_apply]
  show V m c main_arg0 _ = _
  rw [V_main_arg0]
  congr 1
  funext a; apply Fin.ext
  match a with
  | ⟨0, _⟩ => show win0_0.index t 0 * 512 + 1 * (y 0).val = (i 0).val; rw [e0, h0]; omega
  | ⟨1, _⟩ => show win0_0.index t 1 * 1024 + 1 * (y 1).val = (i 1).val; rw [e1, h1]; omega

/-- The resident weights' block is the whole array at every point. -/
theorem iblk1_eq (c : Dev nD) (t : Fin cfg0.N) :
    (iblk m c 1 t : Vec Ideal S1024x1024 .bf16) = (V m c main_v0 : S1024x1024.Idx → Elt Ideal .bf16) := by
  obtain ⟨-, -, e0, e1, -⟩ := idx_facts t
  funext y
  unfold iblk
  rw [View.read_apply]
  show V m c main_v0 _ = V m c main_v0 y
  congr 1
  funext a; apply Fin.ext
  match a with
  | ⟨0, _⟩ => show win0_1.index t 0 * 1024 + 1 * (y 0).val = (y 0).val; rw [e0]; omega
  | ⟨1, _⟩ => show win0_1.index t 1 * 1024 + 1 * (y 1).val = (y 1).val; rw [e1]; omega

/-- The style row's block is the whole row at every point. -/
theorem iblk2_eq (c : Dev nD) (t : Fin cfg0.N) :
    (iblk m c 2 t : Vec Ideal S1x1024 .f32) = (V m c main_v1 : S1x1024.Idx → Elt Ideal .f32) := by
  obtain ⟨-, -, -, -, e0, e1, -⟩ := idx_facts t
  funext y
  unfold iblk
  rw [View.read_apply]
  show V m c main_v1 _ = V m c main_v1 y
  congr 1
  funext a; apply Fin.ext
  match a with
  | ⟨0, _⟩ => show win0_2.index t 0 * 1 + 1 * (y 0).val = (y 0).val; rw [e0]; omega
  | ⟨1, _⟩ => show win0_2.index t 1 * 1024 + 1 * (y 1).val = (y 1).val; rw [e1]; omega

/-- The bias row's block is the whole row at every point. -/
theorem iblk3_eq (c : Dev nD) (t : Fin cfg0.N) :
    (iblk m c 3 t : Vec Ideal S1x1024 .f32) = (V m c main_v2 : S1x1024.Idx → Elt Ideal .f32) := by
  obtain ⟨-, -, -, -, -, -, e0, e1, -⟩ := idx_facts t
  funext y
  unfold iblk
  rw [View.read_apply]
  show V m c main_v2 _ = V m c main_v2 y
  congr 1
  funext a; apply Fin.ext
  match a with
  | ⟨0, _⟩ => show win0_3.index t 0 * 1 + 1 * (y 0).val = (y 0).val; rw [e0]; omega
  | ⟨1, _⟩ => show win0_3.index t 1 * 1024 + 1 * (y 1).val = (y 1).val; rw [e1]; omega

/-- The demodulation row's block is the whole row at every point. -/
theorem iblk4_eq (c : Dev nD) (t : Fin cfg0.N) :
    (iblk m c 4 t : Vec Ideal S1x1024 .f32) = (V m c main_v11 : S1x1024.Idx → Elt Ideal .f32) := by
  obtain ⟨-, -, -, -, -, -, -, -, e0, e1, -⟩ := idx_facts t
  funext y
  unfold iblk
  rw [View.read_apply]
  show V m c main_v11 _ = V m c main_v11 y
  congr 1
  funext a; apply Fin.ext
  match a with
  | ⟨0, _⟩ => show win0_4.index t 0 * 1 + 1 * (y 0).val = (y 0).val; rw [e0]; omega
  | ⟨1, _⟩ => show win0_4.index t 1 * 1024 + 1 * (y 1).val = (y 1).val; rw [e1]; omega

/-- The noise row's block is the whole row at every point. -/
theorem iblk5_eq (c : Dev nD) (t : Fin cfg0.N) :
    (iblk m c 5 t : Vec Ideal S1x1024 .f32) = (V m c main_v14 : S1x1024.Idx → Elt Ideal .f32) := by
  obtain ⟨-, -, -, -, -, -, -, -, -, -, e0, e1, -⟩ := idx_facts t
  funext y
  unfold iblk
  rw [View.read_apply]
  show V m c main_v14 _ = V m c main_v14 y
  congr 1
  funext a; apply Fin.ext
  match a with
  | ⟨0, _⟩ => show win0_5.index t 0 * 1 + 1 * (y 0).val = (y 0).val; rw [e0]; omega
  | ⟨1, _⟩ => show win0_5.index t 1 * 1024 + 1 * (y 1).val = (y 1).val; rw [e1]; omega

/-- What the result array ends holding: entry (r, p) is the layer's output channel `p` computed from row `r`
    of the input, with the weights, style and bias as launched and the demodulation coefficients and noise row
    as the host computed them before the region. -/
def G (c : Dev nD) : S65536x1024.Idx → EReal := fun i =>
  Cert.Spec.out (fun o k => (m ((c : Thread nD τ).loc main_arg2) : S1024x1024.Idx → Elt Ideal .f32) (ix2 o k))
    (fun o => (m ((c : Thread nD τ).loc main_arg1) : S1024.Idx → Elt Ideal .f32) (ix1 o))
    (fun o => (m ((c : Thread nD τ).loc main_arg3) : S1024.Idx → Elt Ideal .f32) (ix1 o))
    (fun q => dcoefK (F := Ideal) (m ((c : Thread nD τ).loc main_arg2)) (m ((c : Thread nD τ).loc main_arg1)) (ix1 q))
    (fun q => noiseK (F := Ideal) (m ((c : Thread nD τ).loc main_arg4)) (m ((c : Thread nD τ).loc main_arg5)) (ix2 (0 : Fin 1) q))
    (fun k => (m ((c : Thread nD τ).loc main_arg0) : S65536x1024.Idx → Elt Ideal .f32) (ix2 (i 0) k)) (i 1)

/-- What point `t` writes back is block `t` of `G`: the body's value at (q, p) of the block is output channel
    `p` from row `q` of the input block, which is row `512 t + q` of the input; the other operands are whole. -/
theorem flushed_eq (c : Dev nD) (t : Fin cfg0.N) :
    (dats m 0 c).flushed 6 t = ((cfg0.win 6).blk t).view.read (Elt Ideal) (G m c) := by
  rw [flushed6]
  unfold out0_6
  rw [View.canon_unit_zero hz]
  simp only [View.ld_unit_zero (S := S512x1024) hz, View.ld_unit_zero (S := S1024x1024) hz, View.ld_unit_zero (S := S1x1024) hz]
  rw [iblk1_eq, iblk2_eq, iblk3_eq, iblk4_eq, iblk5_eq, V_v0, V_v1, V_v2, V_v11, V_v14]
  obtain ⟨-, -, -, -, -, -, -, -, -, -, -, -, e0, e1⟩ := idx_facts t
  funext j
  show k0_pay1 (iblk m c 0 t) _ _ _ _ _ j = G m c (((cfg0.win 6).blk t).view.emb j)
  refine (pay_at _ _ _ _ _ _ j).trans ?_
  unfold G
  have hw : ∀ o : Fin 1024, shapeCast S1x1024 (m ((c : Thread nD τ).loc main_arg1)) shapeCasts_S1024_S1x1024 (ix2 (0 : Fin 1) o)
      = (m ((c : Thread nD τ).loc main_arg1) : S1024.Idx → Elt Ideal .f32) (ix1 o) := fun o => oneRow_apply _ o
  have hb : ∀ o : Fin 1024, shapeCast S1x1024 (m ((c : Thread nD τ).loc main_arg3)) shapeCasts_S1024_S1x1024 (ix2 (0 : Fin 1) o)
      = (m ((c : Thread nD τ).loc main_arg3) : S1024.Idx → Elt Ideal .f32) (ix1 o) := fun o => oneRow_apply _ o
  simp only [oneRow_apply, truncf_apply, hw, hb]
  have hx : (fun k : Fin 1024 => (iblk m c 0 t : Vec Ideal S512x1024 .f32) (ix2 (j 0) k))
      = fun k => (m ((c : Thread nD τ).loc main_arg0) : S65536x1024.Idx → Elt Ideal .f32)
          (ix2 ((((cfg0.win 6).blk t).view.emb j) 0) k) :=
    funext fun k => iblk0_apply m c t (ix2 (j 0) k) _ (by
      show win0_6.index t 0 * 512 + 1 * (j 0).val = 512 * t.val + (j 0).val
      rw [e0]; omega) rfl
  have hp : (j 1 : Fin 1024) = ((cfg0.win 6).blk t).view.emb j 1 :=
    Fin.ext (by show (j 1).val = win0_6.index t 1 * 1024 + 1 * (j 1).val; rw [e1]; omega)
  exact congrArg₂ (Cert.Spec.out _ _ _ _ _) hx hp

/-- An index of the array is in point `t`'s block iff each coordinate is in the block's range on its axis. -/
theorem mem_blk (t : Fin cfg0.N) (i : S65536x1024.Idx) :
    i ∈ ((cfg0.win 6).blk t).view.set ↔ ∀ a : Fin 2, win0_6.index t a * S512x1024.size a ≤ (i a).val
      ∧ (i a).val < win0_6.index t a * S512x1024.size a + S512x1024.size a := by
  show i ∈ ((View.whole main_v15).slice (win0_6.rect t)).set ↔ _
  rw [View.set_slice_whole, Rect.mem_set_unit]
  exact Iff.rfl

/-- The 128 blocks of 512 rows tile the array: row `r` lies in the block of point `r / 512`. -/
theorem cover (i : S65536x1024.Idx) :
    ∃ t : Fin cfg0.N, (cfg0.win 6).flush t = true ∧ i ∈ ((cfg0.win 6).blk t).view.set := by
  have hi0 : (i 0).val < 65536 := (i 0).isLt
  have hi1 : (i 1).val < 1024 := (i 1).isLt
  have hN : cfg0.N = 128 := N_0
  obtain ⟨t, ht⟩ : ∃ t : Fin cfg0.N, t.val = (i 0).val / 512 := ⟨⟨(i 0).val / 512, by rw [hN]; omega⟩, rfl⟩
  obtain ⟨-, -, -, -, -, -, -, -, -, -, -, -, e0, e1⟩ := idx_facts t
  refine ⟨t, flush0_6 t, ?_⟩
  rw [mem_blk]
  intro a
  match a with
  | ⟨0, _⟩ =>
    show win0_6.index t 0 * 512 ≤ (i 0).val ∧ (i 0).val < win0_6.index t 0 * 512 + 512
    rw [e0, ht]; omega
  | ⟨1, _⟩ =>
    show win0_6.index t 1 * 1024 ≤ (i 1).val ∧ (i 1).val < win0_6.index t 1 * 1024 + 1024
    rw [e1]; omega

/-- So the result array ends holding `G`. -/
theorem final (c : Dev nD) : (dats m 0 c).arrAt 6 cfg0.N = G m c :=
  (dats m 0 c).arrAt_eq_of_cover 6 (G m c) (fun t _ => flushed_eq m c t) cover

/-- The kernel's run, read: the result array at `G` of the arguments, the arguments unchanged. -/
theorem run : θ_run defs (onTc (τ := τ) (main (F := Ideal))) ⟨m, fun _ => 0, ρ⟩ fun r => ∀ c : Dev nD,
      r.2.mem ((c : Thread nD τ).loc main_v15) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (final m c), (h c).2⟩) (Cert.KernelIdeal.Value.run_blocks m ρ)

end AtIdeal

end Cert.KernelIdeal.Whole

end
-- ==== Proof.RefTerm.lean ====
/-
  The reference's result as one term of its six argument arrays: the composition of its host operations,
  the called rectifier's operations included, named piece by piece.
-/
import proofs.«159794_j9766755631183_1_alg».proof.Proof.Gen.ReferenceIdeal

noncomputable section

namespace Cert.ReferenceIdeal.RefTerm

open Cert.ReferenceIdeal Cert.ReferenceIdeal.Gen Idealize.ShloMosaic Idealize.SL.Sem

variable {F : FTy → Type} [FloatOps F]

/-- A vector of 1024 entries laid along every row of a matrix with `65536` rows. -/
def rowsBig (v : FVec F S1024 .f32) : FVec F S65536x1024 .f32 :=
  broadcastInDim S65536x1024 ![0, 1] bcast_S1x1024_S65536x1024_0_1 (broadcastInDim S1x1024 ![1] bcast_S1024_S1x1024_1 v)

/-- The same along every row of a square matrix. -/
def rowsSq (v : FVec F S1024 .f32) : FVec F S1024x1024 .f32 :=
  broadcastInDim S1024x1024 ![0, 1] bcast_S1x1024_S1024x1024_0_1 (broadcastInDim S1x1024 ![1] bcast_S1024_S1x1024_1 v)

/-- The weights transposed. -/
def wT (W : FVec F S1024x1024 .f32) : FVec F S1024x1024 .f32 :=
  transpose S1024x1024 [1, 0] W transposes_S1024x1024_S1024x1024_1_0

/-- The demodulation coefficients: the reciprocal square root of each weight row's modulated square sum
    plus the small constant. -/
def dcoefR (W : FVec F S1024x1024 .f32) (w : FVec F S1024 .f32) : FVec F S1024 .f32 :=
  Host.rsqrt (addf
    (Host.reduceAdd (mulf (mulf W (rowsSq w)) (mulf W (rowsSq w))) (constant S_ .f32 0x00000000#32) reducesTo_S1024x1024_S1024_d1 h_S_)
    (broadcastInDim S1024 ![] bcast_S_S1024 (constant S_ .f32 0x322BCC77#32)))

/-- The noise row: the raw noise times the one strength. -/
def noiseR (ns : FVec F S1 .f32) (nr : FVec F S1x1024 .f32) : FVec F S1x1024 .f32 :=
  mulf nr (broadcastInDim S1x1024 ![0, 1] bcast_S1x1_S1x1024_0_1 (broadcastInDim S1x1 ![1] bcast_S1_S1x1_1 ns))

/-- The affine layer on every row. -/
def x1R (x : FVec F S65536x1024 .f32) (W : FVec F S1024x1024 .f32) (b : FVec F S1024 .f32) : FVec F S65536x1024 .f32 :=
  addf (Host.dotGeneral dot_S65536x1024_S1024x1024_S65536x1024_1_0_0_1_n_n none x (wT W)) (rowsBig b)

/-- What the rectifier is applied to. -/
def preR (x : FVec F S65536x1024 .f32) (w : FVec F S1024 .f32) (W : FVec F S1024x1024 .f32) (b : FVec F S1024 .f32)
    (ns : FVec F S1 .f32) (nr : FVec F S1x1024 .f32) : FVec F S65536x1024 .f32 :=
  addf (addf
    (mulf (Host.dotGeneral dot_S65536x1024_S1024x1024_S65536x1024_1_0_0_1_n_n none (mulf (x1R x W b) (rowsBig w)) (wT W))
      (rowsBig (dcoefR W w)))
    (broadcastInDim S65536x1024 ![0, 1] bcast_S1x1024_S65536x1024_0_1 (noiseR ns nr)))
    (rowsBig b)

/-- The rectifier as the reference spells it: a comparison with a broadcast zero, the slope broadcast and
    multiplied, a select. -/
def leakyR (y : FVec F S65536x1024 .f32) : FVec F S65536x1024 .f32 :=
  select (cmpf .oge y (broadcastInDim S65536x1024 ![] bcast_S_S65536x1024 (constant S_ .f32 0x00000000#32))) y
    (mulf (broadcastInDim S65536x1024 ![] bcast_S_S65536x1024 (id (constant S_ .f32 0x3C23D70A#32))) y)

/-- The reference's result. -/
def refOut (x : FVec F S65536x1024 .f32) (w : FVec F S1024 .f32) (W : FVec F S1024x1024 .f32) (b : FVec F S1024 .f32)
    (ns : FVec F S1 .f32) (nr : FVec F S1x1024 .f32) : FVec F S65536x1024 .f32 :=
  leakyR (preR x w W b ns nr)

end Cert.ReferenceIdeal.RefTerm

end
-- ==== Proof.RefRun.lean ====
/-
  The reference's run. Its host operations are listed in their printed order as one straight line: the entry
  function's thirty-two (the affine layer, the demodulation coefficients, the modulated second product, the noise
  row, the bias), then the called rectifier's six and the one select of the function that it calls in turn, each
  over the buffers of its call record. Run from any memory, the line leaves the result buffer at the composed term
  `refOut` of the six argument arrays' launch contents, and the six arguments as they were.
-/
import proofs.«159794_j9766755631183_1_alg».proof.Proof.RefTerm
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The thirty-nine operations in order; the last seven are the rectifier's, written over the call's own buffers. -/
abbrev ops : List (HloOp τ sig (Elt F)) :=
  [ -- the affine layer: x · Wᵀ + b
    unary main_arg2 main_v0 (transpose S1024x1024 [1, 0] · transposes_S1024x1024_S1024x1024_1_0),
    binary main_arg0 main_v0 main_v1 (fun l r => Host.dotGeneral dot_S65536x1024_S1024x1024_S65536x1024_1_0_0_1_n_n none l r),
    unary main_arg3 main_v2 (broadcastInDim S1x1024 ![1] bcast_S1024_S1x1024_1),
    unary main_v2 main_v3 (broadcastInDim S65536x1024 ![0, 1] bcast_S1x1024_S65536x1024_0_1),
    binary main_v1 main_v3 main_v4 addf,
    -- the demodulation coefficients: rsqrt of each row's sum of (W ⊙ w)² plus the small constant
    unary main_arg1 main_v5 (broadcastInDim S1x1024 ![1] bcast_S1024_S1x1024_1),
    unary main_v5 main_v6 (broadcastInDim S1024x1024 ![0, 1] bcast_S1x1024_S1024x1024_0_1),
    binary main_arg2 main_v6 main_v7 mulf,
    binary main_v7 main_v7 main_v8 mulf,
    nullary main_cst (constant S_ .f32 0x00000000#32),
    binary main_v8 main_cst main_v9 (fun x v => Host.reduceAdd x v reducesTo_S1024x1024_S1024_d1 h_S_),
    nullary main_cst_0 (constant S_ .f32 0x322BCC77#32),
    unary main_cst_0 main_v10 (broadcastInDim S1024 ![] bcast_S_S1024),
    binary main_v9 main_v10 main_v11 addf,
    unary main_v11 main_v12 Host.rsqrt,
    -- the modulated rows times Wᵀ
    unary main_arg1 main_v13 (broadcastInDim S1x1024 ![1] bcast_S1024_S1x1024_1),
    unary main_v13 main_v14 (broadcastInDim S65536x1024 ![0, 1] bcast_S1x1024_S65536x1024_0_1),
    binary main_v4 main_v14 main_v15 mulf,
    unary main_arg2 main_v16 (transpose S1024x1024 [1, 0] · transposes_S1024x1024_S1024x1024_1_0),
    binary main_v15 main_v16 main_v17 (fun l r => Host.dotGeneral dot_S65536x1024_S1024x1024_S65536x1024_1_0_0_1_n_n none l r),
    -- the noise row: the raw noise times the one strength
    unary main_arg4 main_v18 (broadcastInDim S1x1 ![1] bcast_S1_S1x1_1),
    unary main_v18 main_v19 (broadcastInDim S1x1024 ![0, 1] bcast_S1x1_S1x1024_0_1),
    binary main_arg5 main_v19 main_v20 mulf,
    -- demodulate, add the noise, add the bias
    unary main_v12 main_v21 (broadcastInDim S1x1024 ![1] bcast_S1024_S1x1024_1),
    unary main_v21 main_v22 (broadcastInDim S65536x1024 ![0, 1] bcast_S1x1024_S65536x1024_0_1),
    binary main_v17 main_v22 main_v23 mulf,
    unary main_v20 main_v24 (broadcastInDim S65536x1024 ![0, 1] bcast_S1x1024_S65536x1024_0_1),
    binary main_v23 main_v24 main_v25 addf,
    unary main_arg3 main_v26 (broadcastInDim S1x1024 ![1] bcast_S1024_S1x1024_1),
    unary main_v26 main_v27 (broadcastInDim S65536x1024 ![0, 1] bcast_S1x1024_S65536x1024_0_1),
    binary main_v25 main_v27 main_v28 addf,
    nullary main_cst_1 (constant S_ .f32 0x3C23D70A#32),
    -- the rectifier on that sum and the slope: compare with a broadcast zero, scale by the broadcast slope
    TRef.nullary main_call0.cst (constant S_ .f32 0x00000000#32),
    TRef.unary main_call0.cst main_call0.v0 (broadcastInDim S65536x1024 ![] bcast_S_S65536x1024),
    TRef.binary (.of main_v28) main_call0.v0 main_call0.v1 (cmpf .oge),
    TRef.unary (.of main_cst_1) main_call0.v2 id,
    TRef.unary main_call0.v2 main_call0.v3 (broadcastInDim S65536x1024 ![] bcast_S_S65536x1024),
    TRef.binary main_call0.v3 (.of main_v28) main_call0.v4 mulf,
    -- its inner function: the select between the sum and the scaled sum
    TRef.ternary main_call0.v1 (.of main_v28) main_call0.v4 main_call0.call0.v0 select ]

-- some forty binds are re-associated, one level of recursion each
set_option maxRecDepth 2048 in
/-- The entry function is that straight line: the two called bodies opened at their call sites, the sequencing
    re-associated into one chain of steps. -/
theorem main_eq (c : Dev nD) : main (F := F) c = seq ops := by
  simp only [main, fn_leaky_relu.body, fn_where.body, seq, bind_assoc, pure_bind]
  rfl

/-- The signature scopes no buffer and no semaphore. -/
theorem scopedRefs_eq : (Finset.univ.filter fun b : Ref sig .tc => b.isScoped) = ∅ := by decide
theorem scopedSems_eq : (Finset.univ.filter fun sm : SemLoc sig => sm.isScoped .tc) = ∅ := by decide

/-- Every operation of the line touches buffers of the device only. -/
theorem ops_sub : (ops : List (HloOp τ sig (Elt F))).Forall fun op => op.bufs ⊆ tcRefs τ sig :=
  ⟨unary_bufs_sub .., binary_bufs_sub .., unary_bufs_sub .., unary_bufs_sub .., binary_bufs_sub ..,
    unary_bufs_sub .., unary_bufs_sub .., binary_bufs_sub .., binary_bufs_sub .., nullary_bufs_sub ..,
    binary_bufs_sub .., nullary_bufs_sub .., unary_bufs_sub .., binary_bufs_sub .., unary_bufs_sub ..,
    unary_bufs_sub .., unary_bufs_sub .., binary_bufs_sub .., unary_bufs_sub .., binary_bufs_sub ..,
    unary_bufs_sub .., unary_bufs_sub .., binary_bufs_sub ..,
    unary_bufs_sub .., unary_bufs_sub .., binary_bufs_sub .., unary_bufs_sub .., binary_bufs_sub ..,
    unary_bufs_sub .., unary_bufs_sub .., binary_bufs_sub .., nullary_bufs_sub ..,
    nullary_bufs_sub .., unary_bufs_sub .., binary_bufs_sub .., unary_bufs_sub .., unary_bufs_sub .., binary_bufs_sub ..,
    ternary_bufs_sub ..⟩

/-- What the line leaves in the result buffer, from any contents: each operation's value read at its own buffer,
    every other buffer passed over; the call records' typed references are literal, so their transports are the
    identity, and what remains is the composed term spelled out. -/
theorem after_out (V : Valuation τ sig (Elt F)) :
    after ops V (Proc.devRef .tc main_v29)
      = Cert.ReferenceIdeal.RefTerm.refOut (V (Proc.devRef .tc main_arg0)) (V (Proc.devRef .tc main_arg1))
          (V (Proc.devRef .tc main_arg2)) (V (Proc.devRef .tc main_arg3)) (V (Proc.devRef .tc main_arg4))
          (V (Proc.devRef .tc main_arg5)) := by
  after_results_simp
  simp only [TRef.ofBuf, TRef.toBuf, cast_eq]
  rfl

/-- No operation of the line writes an argument. -/
theorem after_arg0 (V : Valuation τ sig (Elt F)) : after ops V (Proc.devRef .tc main_arg0) = V (Proc.devRef .tc main_arg0) := by
  after_results_simp
theorem after_arg1 (V : Valuation τ sig (Elt F)) : after ops V (Proc.devRef .tc main_arg1) = V (Proc.devRef .tc main_arg1) := by
  after_results_simp
theorem after_arg2 (V : Valuation τ sig (Elt F)) : after ops V (Proc.devRef .tc main_arg2) = V (Proc.devRef .tc main_arg2) := by
  after_results_simp
theorem after_arg3 (V : Valuation τ sig (Elt F)) : after ops V (Proc.devRef .tc main_arg3) = V (Proc.devRef .tc main_arg3) := by
  after_results_simp
theorem after_arg4 (V : Valuation τ sig (Elt F)) : after ops V (Proc.devRef .tc main_arg4) = V (Proc.devRef .tc main_arg4) := by
  after_results_simp
theorem after_arg5 (V : Valuation τ sig (Elt F)) : after ops V (Proc.devRef .tc main_arg5) = V (Proc.devRef .tc main_arg5) := by
  after_results_simp

/-- On the one device, for any float values, from any memory with zero counters: every weakly fair execution of the
    reference terminates with its result at `refOut` of the six arguments' launch contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v29) = Cert.ReferenceIdeal.RefTerm.refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono
    (fun _ h c => ⟨(h c main_v29).trans (after_out _), (h c main_arg0).trans (after_arg0 _), (h c main_arg1).trans (after_arg1 _),
      (h c main_arg2).trans (after_arg2 _), (h c main_arg3).trans (after_arg3 _), (h c main_arg4).trans (after_arg4 _),
      (h c main_arg5).trans (after_arg5 _)⟩)
    (run_seq scopedRefs_eq scopedSems_eq defs main (fun _ => ops) main_eq (fun _ => ops_sub) m ρ)

end Cert.ReferenceIdeal.RefRun

end
-- ==== Proof.RefRead.lean ====
/-
  The reference's result read at one index (r, p), over the extended reals.

  Every operation of the reference's result term is either pointwise, a change of layout, or a product
  contracted over one axis. Read at an index, a pointwise operation acts on the entries at that index;
  a vector laid along every row of a matrix gives back its entry at the column; the transposed weights
  give the entry at the swapped index; and a product contracted over one axis is the sum, over the 1024
  positions of that axis, of the products of the two operands' entries. Putting these together, entry
  (r, p) of the result is the specification's output channel `p` computed from row `r` of the input:

      leaky ( (∑ o, ((∑ k, x r k · W o k) + b o) · w o · W p o) · dc p + nz p + b p ).

  The demodulation coefficients `dc` and the noise row `nz` are left as the reference names them:
  they occur on both sides as the same terms, read at the column.
-/
import proofs.«159794_j9766755631183_1_alg».proof.Proof.RefTerm
import proofs.«159794_j9766755631183_1_alg».proof.Proof.Spec
import Idealize.ShloMosaic.Lib.ValueIdx
import Idealize.ShloMosaic.Lib.Pipeline.Value
import Idealize.ShloMosaic.PureOps.Ideal.Laws
import Idealize.ShloMosaic.Lib.KernelVsHost

noncomputable section

namespace Cert.ReferenceIdeal.RefRead

open Cert.ReferenceIdeal Cert.ReferenceIdeal.Gen Idealize.ShloMosaic Idealize.ShloMosaic.ValueIdx
open scoped BigOperators

/-! ## Layout operations at an index -/

/-- A vector of 1024 entries laid along each of the 65536 rows, read at (r, p), is the vector's entry `p`:
    the one-row matrix broadcast down the rows reads its row at (0, p), and the vector made into one row
    reads its entry at the column (the axis has more than one position, so no coordinate is forced to 0). -/
theorem rowsBig_apply (v : FVec Ideal S1024 .f32) (r : Fin 65536) (p : Fin 1024) :
    Cert.ReferenceIdeal.RefTerm.rowsBig v (ix2 r p) = v (ix1 p) := by
  unfold Cert.ReferenceIdeal.RefTerm.rowsBig
  rw [broadcastInDim_oneRow_apply]
  refine broadcastInDim_apply ![1] bcast_S1024_S1x1024_1 v (ix2 (0 : Fin 1) p) (ix1 p) ?_
  intro a
  match a with
  | ⟨0, _⟩ =>
    show p.val = if (1024 : ℕ) = 1 then 0 else p.val
    rw [if_neg (by decide)]

/-- The transposed weights at (k, o) are the weights at (o, k): result axis 0 is source axis 1 and
    result axis 1 is source axis 0. -/
theorem wT_apply (W : FVec Ideal S1024x1024 .f32) (k o : Fin 1024) :
    Cert.ReferenceIdeal.RefTerm.wT W (ix2 k o) = W (ix2 o k) := by
  unfold Cert.ReferenceIdeal.RefTerm.wT
  refine transpose_apply [1, 0] W transposes_S1024x1024_S1024x1024_1_0 (ix2 k o) (ix2 o k) ?_
  intro b
  match b with
  | ⟨0, _⟩ => rfl
  | ⟨1, _⟩ => rfl

/-! ## The contraction's operand indices, axis by axis

The product contracts axis 1 of its left operand with axis 0 of its right operand; the left operand's
axis 0 is the result's axis 0 and the right operand's axis 1 is the result's axis 1. So at result index
`j` and contraction position `k` the left operand is read at (j 0, k) and the right operand at (k, j 1). -/

/-- The left operand's row is the result's row. -/
theorem lhs_axis0 (j : S65536x1024.Idx) (k : dot_S65536x1024_S1024x1024_S65536x1024_1_0_0_1_n_n.contr.Idx) :
    (dot_S65536x1024_S1024x1024_S65536x1024_1_0_0_1_n_n.lhsIdx j k 0).val = (j 0).val := by
  unfold DotDims.lhsIdx
  rw [dif_neg (show ¬ (0 : Fin S65536x1024.rank) ∈ dot_S65536x1024_S1024x1024_S65536x1024_1_0_0_1_n_n.lhsBatch by decide),
    dif_pos (show (0 : Fin S65536x1024.rank) ∈ dot_S65536x1024_S1024x1024_S65536x1024_1_0_0_1_n_n.lhsNonContracting by decide)]
  rfl

/-- The left operand's column is the contraction position. -/
theorem lhs_axis1 (j : S65536x1024.Idx) (k : dot_S65536x1024_S1024x1024_S65536x1024_1_0_0_1_n_n.contr.Idx) :
    (dot_S65536x1024_S1024x1024_S65536x1024_1_0_0_1_n_n.lhsIdx j k 1).val = (k ⟨0, by decide⟩).val :=
  DotDims.lhsIdx_val_of_single _ rfl j k

/-- The right operand's row is the contraction position. -/
theorem rhs_axis0 (j : S65536x1024.Idx) (k : dot_S65536x1024_S1024x1024_S65536x1024_1_0_0_1_n_n.contr.Idx) :
    (dot_S65536x1024_S1024x1024_S65536x1024_1_0_0_1_n_n.rhsIdx j k 0).val = (k ⟨0, by decide⟩).val :=
  DotDims.rhsIdx_val_of_single _ rfl j k

/-- The right operand's column is the result's column. -/
theorem rhs_axis1 (j : S65536x1024.Idx) (k : dot_S65536x1024_S1024x1024_S65536x1024_1_0_0_1_n_n.contr.Idx) :
    (dot_S65536x1024_S1024x1024_S65536x1024_1_0_0_1_n_n.rhsIdx j k 1).val = (j 1).val := by
  unfold DotDims.rhsIdx
  rw [dif_neg (show ¬ (1 : Fin S1024x1024.rank) ∈ dot_S65536x1024_S1024x1024_S65536x1024_1_0_0_1_n_n.rhsBatch by decide),
    dif_pos (show (1 : Fin S1024x1024.rank) ∈ dot_S65536x1024_S1024x1024_S65536x1024_1_0_0_1_n_n.rhsNonContracting by decide)]
  rfl

/-! ## The product at an index -/

/-- Entry (r, p) of the product of a 65536 × 1024 matrix `A` and a 1024 × 1024 matrix `B` is
    `∑ k, A r k · B k p`: the sum over the contraction's index set is carried to the sum over the 1024
    positions of its one axis, and at position `k` the two operands are read at (r, k) and (k, p). -/
theorem dot_apply (A : FVec Ideal S65536x1024 .f32) (B : FVec Ideal S1024x1024 .f32) (r : Fin 65536) (p : Fin 1024) :
    Host.dotGeneral dot_S65536x1024_S1024x1024_S65536x1024_1_0_0_1_n_n none A B (ix2 r p)
      = ∑ k : Fin 1024, A (ix2 r k) * B (ix2 k p) := by
  simp only [Host.dotGeneral]
  rw [Ideal.dotGeneral_apply]
  rw [← Equiv.sum_comp (contrEquiv1 dot_S65536x1024_S1024x1024_S65536x1024_1_0_0_1_n_n 1024 rfl rfl).symm]
  refine Finset.sum_congr rfl fun k _ => ?_
  have hk := contrEquiv1_symm_val dot_S65536x1024_S1024x1024_S65536x1024_1_0_0_1_n_n 1024 rfl rfl k
  congr 1
  · refine congrArg A (funext fun a => Fin.ext ?_)
    match a with
    | ⟨0, _⟩ => exact lhs_axis0 _ _
    | ⟨1, _⟩ => exact (lhs_axis1 _ _).trans hk
  · refine congrArg B (funext fun a => Fin.ext ?_)
    match a with
    | ⟨0, _⟩ => exact (rhs_axis0 _ _).trans hk
    | ⟨1, _⟩ => exact rhs_axis1 _ _

/-! ## The affine layer, the second product and the rectifier at an index -/

/-- The affine layer at (r, o): row `r` of the input against row `o` of the weights (the product is with
    the transposed weights, whose entry (k, o) is `W o k`), plus the bias's entry `o`. -/
theorem x1R_apply (x : FVec Ideal S65536x1024 .f32) (W : FVec Ideal S1024x1024 .f32) (b : FVec Ideal S1024 .f32)
    (r : Fin 65536) (o : Fin 1024) :
    Cert.ReferenceIdeal.RefTerm.x1R x W b (ix2 r o)
      = Cert.Spec.lin (fun o k => W (ix2 o k)) (fun o => b (ix1 o)) (fun k => x (ix2 r k)) o := by
  unfold Cert.ReferenceIdeal.RefTerm.x1R Cert.Spec.lin
  rw [addf_apply, dot_apply, rowsBig_apply]
  simp only [wT_apply]

/-- What the rectifier is applied to, at (r, p): the affine layer's row `r`, each entry `o` times the style's
    entry `o`, against row `p` of the weights; that sum times the demodulation coefficient of `p`, plus the
    noise row's entry `p`, plus the bias's entry `p`. -/
theorem preR_apply (x : FVec Ideal S65536x1024 .f32) (w : FVec Ideal S1024 .f32) (W : FVec Ideal S1024x1024 .f32)
    (b : FVec Ideal S1024 .f32) (ns : FVec Ideal S1 .f32) (nr : FVec Ideal S1x1024 .f32) (r : Fin 65536) (p : Fin 1024) :
    Cert.ReferenceIdeal.RefTerm.preR x w W b ns nr (ix2 r p)
      = (∑ o : Fin 1024, (Cert.Spec.lin (fun o k => W (ix2 o k)) (fun o => b (ix1 o)) (fun k => x (ix2 r k)) o * w (ix1 o)) * W (ix2 p o))
          * Cert.ReferenceIdeal.RefTerm.dcoefR W w (ix1 p)
        + Cert.ReferenceIdeal.RefTerm.noiseR ns nr (ix2 (0 : Fin 1) p) + b (ix1 p) := by
  unfold Cert.ReferenceIdeal.RefTerm.preR
  rw [addf_apply, addf_apply, mulf_apply, dot_apply, rowsBig_apply, rowsBig_apply, broadcastInDim_oneRow_apply]
  simp only [mulf_apply, x1R_apply, rowsBig_apply, wT_apply]

/-- The rectifier as the reference spells it, at any index, is the specification's rectifier of the entry:
    the comparison, the product with the slope and the choice between the two act entry by entry, and a
    constant laid over the whole matrix reads that constant everywhere. -/
theorem leakyR_apply (y : FVec Ideal S65536x1024 .f32) (i : S65536x1024.Idx) :
    Cert.ReferenceIdeal.RefTerm.leakyR y i = Cert.Spec.leaky (y i) := rfl

/-- Entry (r, p) of the reference's result is the specification's output channel `p` from row `r` of the input,
    with the reference's own demodulation coefficients and noise row read at the column. -/
theorem refOut_apply (x : FVec Ideal S65536x1024 .f32) (w : FVec Ideal S1024 .f32) (W : FVec Ideal S1024x1024 .f32) (b : FVec Ideal S1024 .f32)
    (ns : FVec Ideal S1 .f32) (nr : FVec Ideal S1x1024 .f32) (r : Fin 65536) (p : Fin 1024) :
    Cert.ReferenceIdeal.RefTerm.refOut x w W b ns nr (ix2 r p)
      = Cert.Spec.out (fun o k => W (ix2 o k)) (fun o => w (ix1 o)) (fun o => b (ix1 o))
          (fun q => Cert.ReferenceIdeal.RefTerm.dcoefR W w (ix1 q)) (fun q => Cert.ReferenceIdeal.RefTerm.noiseR ns nr (ix2 (0 : Fin 1) q))
          (fun k => x (ix2 r k)) p := by
  unfold Cert.ReferenceIdeal.RefTerm.refOut Cert.Spec.out
  rw [leakyR_apply, preR_apply]

end Cert.ReferenceIdeal.RefRead

end
-- ==== Proof.lean ====
/-
  A modulated dense layer with demodulation, noise and a leaky rectifier, computed block by block on the
  accelerator, against the same layer written with whole-array operations.

  Both programs compute, for every input row `x` and output channel `p`,

      leaky ( (∑ o, ((∑ k, x k · W o k) + b o) · w o · W p o) · dc p + nz p + b p ),

  where `dc p = rsqrt (∑ j (W p j · w j)² + ε)` and `nz p = noise p · strength` are computed by the same
  host operations in both. The kernel works on blocks of 512 rows: it rounds its operands to a narrower
  format (the identity on extended reals), multiplies into a zero accumulator (the plain sum), and lays the
  one-row operands along the block's rows. The reference transposes the weights and contracts the other
  axis, which reads the same entries. Both sides are therefore the same arrangement of sums and products
  of the same numbers, entry by entry; no law of arithmetic beyond that is used, and the precondition is
  not opened.

  The kernel's result array is read off its generated block-by-block run: each grid point writes its block
  of the whole-array function, and the 128 blocks tile the array. The reference's run is written out as the
  straight line of its host operations, the called rectifier's included, and its result term is read at an
  index. The two frames of the kernel are the generated ones; the reference's frame is its run with the
  result dropped. The idealized kernel is the kernel's own text read over the extended reals: nothing to
  preserve.
-/
import proofs.«159794_j9766755631183_1_alg».proof.Defs
import proofs.«159794_j9766755631183_1_alg».proof.Proof.Gen.Kernel
import proofs.«159794_j9766755631183_1_alg».proof.Proof.Gen.Kernel.Skeleton
import proofs.«159794_j9766755631183_1_alg».proof.Proof.Gen.Kernel.Launch
import proofs.«159794_j9766755631183_1_alg».proof.Proof.Gen.Kernel.Points
import proofs.«159794_j9766755631183_1_alg».proof.Proof.Gen.Kernel.Frame
import proofs.«159794_j9766755631183_1_alg».proof.Proof.Gen.KernelIdeal
import proofs.«159794_j9766755631183_1_alg».proof.Proof.Gen.KernelIdeal.Skeleton
import proofs.«159794_j9766755631183_1_alg».proof.Proof.Gen.KernelIdeal.Launch
import proofs.«159794_j9766755631183_1_alg».proof.Proof.Gen.KernelIdeal.Points
import proofs.«159794_j9766755631183_1_alg».proof.Proof.Gen.KernelIdeal.Frame
import proofs.«159794_j9766755631183_1_alg».proof.Proof.Gen.KernelIdeal.Value
import proofs.«159794_j9766755631183_1_alg».proof.Proof.Gen.ReferenceIdeal
import proofs.«159794_j9766755631183_1_alg».proof.Proof.Gen.Pre_finite_inputs
import proofs.«159794_j9766755631183_1_alg».proof.Proof.KernelValue
import proofs.«159794_j9766755631183_1_alg».proof.Proof.RefRun
import proofs.«159794_j9766755631183_1_alg».proof.Proof.RefRead
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

/-- The reference terminates without a fault and leaves its arguments as they were: its run, the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The demodulation coefficients are one term in both programs: the same host operations of the same arguments. -/
theorem dcoef_same (W : FVec Ideal Cert.KernelIdeal.S1024x1024 .f32) (w : FVec Ideal Cert.KernelIdeal.S1024 .f32) :
    Cert.KernelIdeal.Whole.dcoefK W w = Cert.ReferenceIdeal.RefTerm.dcoefR W w := rfl

/-- So is the noise row. -/
theorem noise_same (ns : FVec Ideal Cert.KernelIdeal.S1 .f32) (nr : FVec Ideal Cert.KernelIdeal.S1x1024 .f32) :
    Cert.KernelIdeal.Whole.noiseK ns nr = Cert.ReferenceIdeal.RefTerm.noiseR ns nr := rfl

/-- From memories that agree on the six arguments the two idealized programs end with the same result array:
    the kernel's at the whole-array function its blocks tile, the reference's at its composed term, which read at
    an index is that function. -/
theorem algebraic : Cert.algebraic_KernelIdeal_ReferenceIdeal := by
  intro m ρ m' ρ' _ hagree
  refine ⟨fun c => Cert.KernelIdeal.Whole.G m c, Cert.KernelIdeal.Whole.run m ρ, ?_⟩
  refine (θ_run Cert.ReferenceIdeal.defs _ _).mono (fun _ h c => ⟨(h c).1.trans ?_, (h c).2⟩)
    (Cert.ReferenceIdeal.RefRun.run (F := Ideal) m' ρ')
  obtain ⟨a0, a1, a2, a3, a4, a5⟩ := hagree c
  rw [a0, a1, a2, a3, a4, a5]
  funext i
  have e : i = ix2 (i 0) (i 1) := eq_ix2 i
  refine (congrArg _ e).trans ((Cert.ReferenceIdeal.RefRead.refOut_apply _ _ _ _ _ _ (i 0) (i 1)).trans ?_)
  exact congrArg₂ (fun (dc nz : Fin 1024 → EReal) => Cert.Spec.out _ _ _ dc nz _ _)
    (funext fun q => (congrFun (dcoef_same _ _) (ix1 q)).symm)
    (funext fun q => (congrFun (noise_same _ _) (ix2 (0 : Fin 1) q)).symm)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
